-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x4096 : Shape := ⟨2, ![1024, 4096]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x2048x1024 .f32) (main_arg1 : FVec F S1024x4096 .f32) (main_arg2 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x2048x1024 : Shape := ⟨3, ![8, 2048, 1024]⟩
abbrev S1024x4096 : Shape := ⟨2, ![1024, 4096]⟩
abbrev S1024 : Shape := ⟨1, ![1024]⟩
abbrev S1024x1024x4 : Shape := ⟨3, ![1024, 1024, 4]⟩
abbrev S4x1024x1024 : Shape := ⟨3, ![4, 1024, 1024]⟩
abbrev S_ : Shape := ⟨0, ![]⟩
abbrev S8x2051x1024 : Shape := ⟨3, ![8, 2051, 1024]⟩
abbrev S1x1024 : Shape := ⟨2, ![1, 1024]⟩
abbrev S1x2051x1024 : Shape := ⟨3, ![1, 2051, 1024]⟩
abbrev S4x1024x512 : Shape := ⟨3, ![4, 1024, 512]⟩
abbrev S1x512 : Shape := ⟨2, ![1, 512]⟩
abbrev S1x2048x512 : Shape := ⟨3, ![1, 2048, 512]⟩
abbrev S2051x1024 : Shape := ⟨2, ![2051, 1024]⟩
abbrev S2048x512 : Shape := ⟨2, ![2048, 512]⟩
abbrev S2048x1024 : Shape := ⟨2, ![2048, 1024]⟩
abbrev S1x1024x512 : Shape := ⟨3, ![1, 1024, 512]⟩
abbrev S1024x512 : Shape := ⟨2, ![1024, 512]⟩
abbrev S512 : Shape := ⟨1, ![512]⟩

abbrev nBuf : Space → Nat
  | .hbm => 12
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S1024, .f32⟩
  | .hbm, ⟨3, _⟩ => ⟨S1024x1024x4, .f32⟩
  | .hbm, ⟨4, _⟩ => ⟨S4x1024x1024, .f32⟩
  | .hbm, ⟨5, _⟩ => ⟨S4x1024x1024, .bf16⟩
  | .hbm, ⟨6, _⟩ => ⟨S_, .i32⟩
  | .hbm, ⟨7, _⟩ => ⟨S_, .f32⟩
  | .hbm, ⟨8, _⟩ => ⟨S8x2051x1024, .f32⟩
  | .hbm, ⟨9, _⟩ => ⟨S8x2051x1024, .bf16⟩
  | .hbm, ⟨10, _⟩ => ⟨S1x1024, .f32⟩
  | .hbm, ⟨11, _⟩ => ⟨S8x2048x1024, .f32⟩
  | .local _ .vmem, ⟨0, _⟩ => ⟨S1x2051x1024, .bf16⟩
  | .local _ .vmem, ⟨1, _⟩ => ⟨S1x2051x1024, .bf16⟩
  | .local _ .vmem, ⟨2, _⟩ => ⟨S4x1024x512, .bf16⟩
  | .local _ .vmem, ⟨3, _⟩ => ⟨S4x1024x512, .bf16⟩
  | .local _ .vmem, ⟨4, _⟩ => ⟨S1x512, .f32⟩
  | .local _ .vmem, ⟨5, _⟩ => ⟨S1x512, .f32⟩
  | .local _ .vmem, ⟨6, _⟩ => ⟨S1x2048x512, .f32⟩
  | .local _ .vmem, ⟨7, _⟩ => ⟨S1x2048x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2051x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024x4096_S1024x1024x4 : S1024x4096.ShapeCasts S1024x1024x4
  transposes_S1024x1024x4_S4x1024x1024_2_1_0 : S1024x1024x4.Transposes [2, 1, 0] S4x1024x1024
  bitsLt_bf16_f32 : FTy.bits .bf16 < FTy.bits .f32
  pads_S8x2048x1024_S8x2051x1024_000_300_000 : S8x2048x1024.Pads (![0, 3, 0] : Fin 3 → Nat) ![0, 0, 0] ![0, 0, 0] S8x2051x1024
  h_S_ : 0 < S_.numel
  shapeCasts_S1024_S1x1024 : S1024.ShapeCasts S1x1024
  inb_S1x2051x1024_S1x2051x1024_0_0_0 : ∀ a, (![0, 0, 0] : Fin 3 → Nat) a + S1x2051x1024.size a ≤ S1x2051x1024.size a
  h_S1x2051x1024 : 0 < S1x2051x1024.numel
  shapeCasts_S1x2051x1024_S2051x1024 : S1x2051x1024.ShapeCasts S2051x1024
  slices_S2051x1024_o3_0_S2048x1024 : S2051x1024.Slices ![3, 0] S2048x1024
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  slices_S2051x1024_o2_0_S2048x1024 : S2051x1024.Slices ![2, 0] S2048x1024
  inb_S4x1024x512_S1x1024x512_1_0_0 : ∀ a, (![1, 0, 0] : Fin 3 → Nat) a + S1x1024x512.size a ≤ S4x1024x512.size a
  slices_S2051x1024_o1_0_S2048x1024 : S2051x1024.Slices ![1, 0] S2048x1024
  inb_S4x1024x512_S1x1024x512_2_0_0 : ∀ a, (![2, 0, 0] : Fin 3 → Nat) a + S1x1024x512.size a ≤ S4x1024x512.size a
  slices_S2051x1024_o0_0_S2048x1024 : S2051x1024.Slices ![0, 0] S2048x1024
  inb_S4x1024x512_S1x1024x512_3_0_0 : ∀ a, (![3, 0, 0] : Fin 3 → Nat) a + S1x1024x512.size a ≤ S4x1024x512.size a
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2051x1024.size a ≤ S8x2051x1024.size a
  hwx0_0 : ∀ i : grid0.Coords, EltTy.bits .bf16 = 32 ∨ (Rect.block (s := S8x2051x1024) S1x2051x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x512.size a ≤ S4x1024x1024.size a
  hwx0_1 : ∀ i : grid0.Coords, EltTy.bits .bf16 = 32 ∨ (Rect.block (s := S4x1024x1024) S4x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x1024.size a
  hwx0_3 : ∀ i : grid0.Coords, EltTy.bits .f32 = 32 ∨ (Rect.block (s := S8x2048x1024) S1x2048x512.size (cc0_transform_3 i) (hinb0_3 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v4) S1x2051x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x4096 : Shape := ⟨2, ![1024, 4096]⟩
abbrev S1024 : Shape := ⟨1, ![1024]⟩
abbrev S_ : Shape := ⟨0, ![]⟩
abbrev S8x2049x1024 : Shape := ⟨3, ![8, 2049, 1024]⟩
abbrev S8x2050x1024 : Shape := ⟨3, ![8, 2050, 1024]⟩
abbrev S8x2051x1024 : Shape := ⟨3, ![8, 2051, 1024]⟩
abbrev S8x2048x1024x1 : Shape := ⟨4, ![8, 2048, 1024, 1]⟩
abbrev S8x2048x1024x4 : Shape := ⟨4, ![8, 2048, 1024, 4]⟩
abbrev S8x2048x4096 : Shape := ⟨3, ![8, 2048, 4096]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x4096, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S8x2048x1024, .f32⟩
  | .hbm, ⟨6, _⟩ => ⟨S_, .i32⟩
  | .hbm, ⟨7, _⟩ => ⟨S_, .f32⟩
  | .hbm, ⟨8, _⟩ => ⟨S8x2049x1024, .f32⟩
  | .hbm, ⟨9, _⟩ => ⟨S8x2048x1024, .f32⟩
  | .hbm, ⟨10, _⟩ => ⟨S_, .i32⟩
  | .hbm, ⟨11, _⟩ => ⟨S_, .f32⟩
  | .hbm, ⟨12, _⟩ => ⟨S8x2050x1024, .f32⟩
  | .hbm, ⟨13, _⟩ => ⟨S8x2048x1024, .f32⟩
  | .hbm, ⟨14, _⟩ => ⟨S_, .i32⟩
  | .hbm, ⟨15, _⟩ => ⟨S_, .f32⟩
  | .hbm, ⟨16, _⟩ => ⟨S8x2051x1024, .f32⟩
  | .hbm, ⟨17, _⟩ => ⟨S8x2048x1024, .f32⟩
  | .hbm, ⟨18, _⟩ => ⟨S8x2048x1024x1, .f32⟩
  | .hbm, ⟨19, _⟩ => ⟨S8x2048x1024x1, .f32⟩
  | .hbm, ⟨20, _⟩ => ⟨S8x2048x1024x1, .f32⟩
  | .hbm, ⟨21, _⟩ => ⟨S8x2048x1024x1, .f32⟩
  | .hbm, ⟨22, _⟩ => ⟨S8x2048x1024x4, .f32⟩
  | .hbm, ⟨23, _⟩ => ⟨S8x2048x4096, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_call2_v0 : Ref sig .tc := ⟨.hbm, 11, rfl⟩
abbrev main_v3 : Ref sig .tc := ⟨.hbm, 12, rfl⟩
abbrev main_v4 : Ref sig .tc := ⟨.hbm, 13, rfl⟩
abbrev main_c_2 : Ref sig .tc := ⟨.hbm, 14, rfl⟩
abbrev main_call3_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  pads_S8x2048x1024_S8x2048x1024_000_000_000 : S8x2048x1024.Pads (![0, 0, 0] : Fin 3 → Nat) ![0, 0, 0] ![0, 0, 0] S8x2048x1024
  h_S_ : 0 < S_.numel
  pads_S8x2048x1024_S8x2049x1024_000_100_000 : S8x2048x1024.Pads (![0, 1, 0] : Fin 3 → Nat) ![0, 0, 0] ![0, 0, 0] S8x2049x1024
  slices_S8x2049x1024_S8x2048x1024_0_0_0 : S8x2049x1024.Slices ![0, 0, 0] S8x2048x1024
  pads_S8x2048x1024_S8x2050x1024_000_200_000 : S8x2048x1024.Pads (![0, 2, 0] : Fin 3 → Nat) ![0, 0, 0] ![0, 0, 0] S8x2050x1024
  slices_S8x2050x1024_S8x2048x1024_0_0_0 : S8x2050x1024.Slices ![0, 0, 0] S8x2048x1024
  pads_S8x2048x1024_S8x2051x1024_000_300_000 : S8x2048x1024.Pads (![0, 3, 0] : Fin 3 → Nat) ![0, 0, 0] ![0, 0, 0] S8x2051x1024
  slices_S8x2051x1024_S8x2048x1024_0_0_0 : S8x2051x1024.Slices ![0, 0, 0] S8x2048x1024
  bcast_S8x2048x1024_S8x2048x1024x1_0_1_2 : S8x2048x1024.BroadcastsInDim S8x2048x1024x1 (![0, 1, 2] : Fin 3 → Fin S8x2048x1024x1.rank)
  concatenates_S8x2048x1024x1_S8x2048x1024x1_S8x2048x1024x1_S8x2048x1024x1_S8x2048x1024x4_d3 : Shape.Concatenates [S8x2048x1024x1, S8x2048x1024x1, S8x2048x1024x1, S8x2048x1024x1] S8x2048x1024x4 3
  shapeCasts_S8x2048x1024x4_S8x2048x4096 : S8x2048x1024x4.ShapeCasts S8x2048x4096
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x4096_S1024x4096_S8x2048x1024_2_1_01_0_n_n_wf : DotDims.WF S8x2048x4096 S1024x4096 S8x2048x1024 [2] [1] [0, 1] [0] [] []

variable [Facts₀]

def dot_S8x2048x4096_S1024x4096_S8x2048x1024_2_1_01_0_n_n : DotDims S8x2048x4096 S1024x4096 S8x2048x1024 where
  lhsContracting := [2]
  rhsContracting := [1]
  lhsNonContracting := [0, 1]
  rhsNonContracting := [0]
  lhsBatch := []
  rhsBatch := []
  wf := dot_S8x2048x4096_S1024x4096_S8x2048x1024_2_1_01_0_n_n_wf

class Facts : Prop extends Facts₀ where

variable [Facts]
-- ==== Proof.KernelPay.lean ====
/-
  The kernel body's arithmetic at one entry of its output block.

  At a grid point the body holds one batch row's padded sequence `X` (2051 rows: three rows of padding, then the 2048 rows
  of the sequence), a slab of four weight matrices `Wᵢ` (1024 × 512 each) and a bias row `β`. It forms the four matrix
  products of rows `3 − i … 3 − i + 2047` of `X` with `Wᵢ`, adds them up from zero and adds the bias to every row. At the
  ideal values every product entry is a plain finite sum, so entry `(l, n)` of the block is

      ((((0 + Σ_d X[l+3,d]·W₀[d,n]) + Σ_d X[l+2,d]·W₁[d,n]) + Σ_d X[l+1,d]·W₂[d,n]) + Σ_d X[l,d]·W₃[d,n]) + β[n].
-/
import proofs.«176065_j65824668778891_1_alg».proof.Proof.Gen.KernelIdeal.Skeleton
import Idealize.ShloMosaic.Lib.Pipeline.Value
import Idealize.ShloMosaic.Lib.ValueIdx
import Idealize.ShloMosaic.PureOps.Ideal.Laws

noncomputable section

namespace Phrase.Kern

open Cert.KernelIdeal Cert.KernelIdeal.Gen Idealize.ShloMosaic Idealize.ShloMosaic.ValueIdx

/-! ## The block product at an entry -/

theorem lhs_axis0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhs_axis1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhs_axis0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhs_axis1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- A matrix product into the zero block, at entry `(l, n)`: the sum over the 1024 shared coordinates. -/
theorem product_apply (A : FVec Ideal S2048x1024 .bf16) (B : FVec Ideal S1024x512 .bf16) (l : Fin 2048) (n : Fin 512) :
    matmul dot_S2048x1024_S1024x512_S2048x512_1_0_0_1_n_n none A B (constant (F := Ideal) S2048x512 .f32 0x00000000#32) (ix2 l n)
      = ∑ d : Fin 1024, A (ix2 l d) * B (ix2 d n) := by
  simp only [matmul]
  rw [Ideal.matmul_constant_zero_apply, ← Equiv.sum_comp (contrEquiv1 dot_S2048x1024_S1024x512_S2048x512_1_0_0_1_n_n 1024 rfl rfl).symm]
  refine Finset.sum_congr rfl fun k _ => ?_
  have hk := contrEquiv1_symm_val dot_S2048x1024_S1024x512_S2048x512_1_0_0_1_n_n 1024 rfl rfl k
  have el : dot_S2048x1024_S1024x512_S2048x512_1_0_0_1_n_n.lhsIdx (ix2 l n) ((contrEquiv1 dot_S2048x1024_S1024x512_S2048x512_1_0_0_1_n_n 1024 rfl rfl).symm k) = ix2 l k := funext fun a => Fin.ext (by
    match a with
    | ⟨0, _⟩ => exact lhs_axis0 _ _
    | ⟨1, _⟩ => exact (lhs_axis1 _ _).trans hk)
  have er : dot_S2048x1024_S1024x512_S2048x512_1_0_0_1_n_n.rhsIdx (ix2 l n) ((contrEquiv1 dot_S2048x1024_S1024x512_S2048x512_1_0_0_1_n_n 1024 rfl rfl).symm k) = ix2 k n := funext fun a => Fin.ext (by
    match a with
    | ⟨0, _⟩ => exact (rhs_axis0 _ _).trans hk
    | ⟨1, _⟩ => exact rhs_axis1 _ _)
  rw [el, er]

/-! ## The operands of the products, read at an entry -/

/-- Rows `r … r + 2047` of the staged rows, as a matrix: entry `(l, d)` is staged row `l + r`. -/
theorem rows_apply (X : FVec Ideal S1x2051x1024 .bf16) (r : Nat) (hr : r ≤ 3) (hc : S1x2051x1024.ShapeCasts S2051x1024)
    (hs : S2051x1024.Slices ![r, 0] S2048x1024) (l : Fin 2048) (d : Fin 1024) :
    extractStridedSlice S2048x1024 ![r, 0] (shapeCast S2051x1024 X hc) hs (ix2 l d)
      = X (ix3 (0 : Fin 1) ⟨l.val + r, by have := l.isLt; omega⟩ d) := by
  have hl := l.isLt
  refine (extractStridedSlice_apply ![r, 0] _ hs (ix2 l d) (ix2 (⟨l.val + r, by omega⟩ : Fin 2051) d) (fun a => ?_)).trans ?_
  · match a with
    | ⟨0, _⟩ => show l.val + r = r + l.val; omega
    | ⟨1, _⟩ => show d.val = 0 + d.val; omega
  · refine shapeCast_apply X hc _ (ix3 (0 : Fin 1) (⟨l.val + r, by omega⟩ : Fin 2051) d) ?_
    rw [Shape.rowMajor_val_three, Shape.rowMajor_val_two]
    show (0 * 2051 + (l.val + r)) * 1024 + d.val = (l.val + r) * 1024 + d.val
    omega

/-- One staged weight matrix: entry `(d, n)` of the matrix is entry `(0, d, n)` of the loaded piece. -/
theorem weight_apply (Wi : FVec Ideal S1x1024x512 .bf16) (hc : S1x1024x512.ShapeCasts S1024x512) (d : Fin 1024) (n : Fin 512) :
    shapeCast S1024x512 Wi hc (ix2 d n) = Wi (ix3 (0 : Fin 1) d n) := by
  refine shapeCast_apply Wi hc _ (ix3 (0 : Fin 1) d n) ?_
  rw [Shape.rowMajor_val_three, Shape.rowMajor_val_two]
  show (0 * 1024 + d.val) * 512 + n.val = d.val * 512 + n.val
  omega

/-- The bias row spread over the 2048 rows: entry `(l, n)` is `β[0, n]`. -/
theorem bias_apply (β : FVec Ideal S1x512 .f32) (h1 : S1x512.ShapeCasts S512) (h2 : S512.ShapeCasts S1x512)
    (hb : S1x512.Broadcasts S2048x512) (l : Fin 2048) (n : Fin 512) :
    broadcastTo S2048x512 (shapeCast S1x512 (shapeCast S512 β h1) h2) hb (ix2 l n) = β (ix2 (0 : Fin 1) n) := by
  rw [shapeCast_shapeCast]
  refine broadcastTo_apply β hb (ix2 l n) (ix2 (0 : Fin 1) n) (fun a => ?_)
  match a with
  | ⟨0, _⟩ => show (0 : Nat) = if (1 : Nat) = 1 then 0 else _; rw [if_pos rfl]
  | ⟨1, _⟩ => show n.val = if (512 : Nat) = 1 then 0 else n.val; rw [if_neg (by decide)]

/-! ## The stored block at an entry -/

/-- One of the four products, at entry `(l, n)`: rows `r …` of the staged rows against one staged weight matrix. -/
theorem term_apply (X : FVec Ideal S1x2051x1024 .bf16) (Wi : FVec Ideal S1x1024x512 .bf16) (r : Nat) (hr : r ≤ 3)
    (hc : S1x2051x1024.ShapeCasts S2051x1024) (hs : S2051x1024.Slices ![r, 0] S2048x1024) (hw : S1x1024x512.ShapeCasts S1024x512)
    (l : Fin 2048) (n : Fin 512) :
    matmul dot_S2048x1024_S1024x512_S2048x512_1_0_0_1_n_n none (extractStridedSlice S2048x1024 ![r, 0] (shapeCast S2051x1024 X hc) hs) (shapeCast S1024x512 Wi hw)
        (constant (F := Ideal) S2048x512 .f32 0x00000000#32) (ix2 l n)
      = ∑ d : Fin 1024, X (ix3 (0 : Fin 1) ⟨l.val + r, by have := l.isLt; omega⟩ d) * Wi (ix3 (0 : Fin 1) d n) := by
  rw [product_apply]
  exact Finset.sum_congr rfl fun d _ => by rw [rows_apply X r hr hc hs l d, weight_apply Wi hw d n]

/-- The body's stored block at entry `(0, l, n)`. -/
theorem payload_apply (X : Vec Ideal S1x2051x1024 .bf16) (W0 W1 W2 W3 : Vec Ideal S1x1024x512 .bf16) (β : Vec Ideal S1x512 .f32)
    (l : Fin 2048) (n : Fin 512) :
    k0_pay1 (F := Ideal) X W0 W1 W2 W3 β (ix3 (0 : Fin 1) l n)
      = ((((0 + ∑ d : Fin 1024, X (ix3 (0 : Fin 1) ⟨l.val + 3, by have := l.isLt; omega⟩ d) * W0 (ix3 (0 : Fin 1) d n))
            + ∑ d : Fin 1024, X (ix3 (0 : Fin 1) ⟨l.val + 2, by have := l.isLt; omega⟩ d) * W1 (ix3 (0 : Fin 1) d n))
            + ∑ d : Fin 1024, X (ix3 (0 : Fin 1) ⟨l.val + 1, by have := l.isLt; omega⟩ d) * W2 (ix3 (0 : Fin 1) d n))
            + ∑ d : Fin 1024, X (ix3 (0 : Fin 1) ⟨l.val + 0, by have := l.isLt; omega⟩ d) * W3 (ix3 (0 : Fin 1) d n))
          + β (ix2 (0 : Fin 1) n) := by
  unfold k0_pay1
  refine (shapeCast_apply _ _ (ix3 (0 : Fin 1) l n) (ix2 l n) ?_).trans ?_
  · rw [Shape.rowMajor_val_three, Shape.rowMajor_val_two]
    show l.val * 512 + n.val = (0 * 2048 + l.val) * 512 + n.val
    omega
  · simp only [addf_apply, broadcast_apply]
    rw [term_apply X W0 3 (by omega), term_apply X W1 2 (by omega), term_apply X W2 1 (by omega), term_apply X W3 0 (by omega),
      bias_apply]
    show Ideal.ofBits .f32 0x00000000#32 + _ + _ + _ + _ + _ = _
    rw [Ideal.ofBits_zero_f32]

end Phrase.Kern

end
-- ==== Proof.Spec.lean ====
/-
  What the phrase projection computes, as ONE function of the argument arrays.

  For a sequence `x[b, l, d]` (8 × 2048 × 1024), a weight `W[o, f]` (1024 × 4096, the feature index `f = 4·d + i`
  pairing the word coordinate `d` with the position `i` inside a phrase of four) and a bias `β[o]`:

      y[b, l, o] = Σ_{i < 4} Σ_{d < 1024} x̃_i[b, l, d] · W[o, 4·d + i]  +  β[o],

  where `x̃_i[b, l, d] = x[b, l − i, d]` for `i ≤ l` and `0` before the start of the sequence. Both programs compute
  this: one as four block products summed, the other as a single contraction over the 4096 features; the law that joins
  them is only a re-indexing of a finite sum in a commutative monoid (`sum_cols`), so it holds on the extended reals with
  no finiteness assumption.
-/
import Idealize.ShloMosaic.PureOps.Ideal
import Idealize.ShloMosaic.Lib.ValueIdx

noncomputable section

namespace Phrase

open Idealize.ShloMosaic Idealize.ShloMosaic.ValueIdx

/-- The sequence array's shape. -/
abbrev SX : Shape := ⟨3, ![8, 2048, 1024]⟩
/-- The weight's shape. -/
abbrev SW : Shape := ⟨2, ![1024, 4096]⟩
/-- The bias's shape. -/
abbrev SB : Shape := ⟨1, ![1024]⟩

/-- Row `l` of the sequence moved back by `i` steps: `x[b, l − i, d]`, and zero before the sequence starts. -/
def shifted (x : FVec Ideal SX .f32) (b : Fin 8) (l : Fin 2048) (i : Fin 4) (d : Fin 1024) : EReal :=
  if h : i.val ≤ l.val then x (ix3 b ⟨l.val - i.val, by have := l.isLt; omega⟩ d) else 0

theorem shifted_of_le (x : FVec Ideal SX .f32) (b : Fin 8) (l : Fin 2048) (i : Fin 4) (d : Fin 1024) (h : i.val ≤ l.val) :
    shifted x b l i d = x (ix3 b ⟨l.val - i.val, by have := l.isLt; omega⟩ d) := dif_pos h

theorem shifted_of_lt (x : FVec Ideal SX .f32) (b : Fin 8) (l : Fin 2048) (i : Fin 4) (d : Fin 1024) (h : l.val < i.val) :
    shifted x b l i d = 0 := dif_neg (by omega)

/-- The feature column that pairs word coordinate `d` with phrase position `i`. -/
def col (d : Fin 1024) (i : Fin 4) : Fin 4096 := ⟨4 * d.val + i.val, by have := d.isLt; have := i.isLt; omega⟩

/-- The projection of the four shifted copies, plus the bias. -/
def G (x : FVec Ideal SX .f32) (W : FVec Ideal SW .f32) (β : FVec Ideal SB .f32) : SX.Idx → EReal := fun j =>
  (∑ i : Fin 4, ∑ d : Fin 1024, shifted x (j 0) (j 1) i d * W (ix2 (j 2) (col d i))) + β (ix1 (j 2))

/-- A sum over the 4096 features is the double sum over phrase positions and word coordinates. -/
theorem sum_cols {M : Type*} [AddCommMonoid M] (f : Fin 4096 → M) :
    ∑ k : Fin 4096, f k = ∑ i : Fin 4, ∑ d : Fin 1024, f (col d i) := by
  have e : Fin 1024 × Fin 4 ≃ Fin 4096 := finProdFinEquiv (m := 1024) (n := 4)
  have he : ∀ p : Fin 1024 × Fin 4, (finProdFinEquiv (m := 1024) (n := 4) p : Fin 4096) = col p.1 p.2 := fun p =>
    Fin.ext (by show p.2.val + 4 * p.1.val = 4 * p.1.val + p.2.val; omega)
  rw [Finset.sum_comm, ← Fintype.sum_prod_type' (f := fun d i => f (col d i)),
    ← (finProdFinEquiv (m := 1024) (n := 4)).sum_comp f]
  exact Finset.sum_congr rfl fun p _ => congrArg f (he p)

end Phrase

end
-- ==== Proof.KernelHost.lean ====
/-
  What the kernel region finds in the three arrays its windows stage, entry by entry, as functions of the arguments.

  Before the region the program front-pads the sequence with three zero rows (so padded row `l + 3 − i` is the sequence
  moved back by `i`, zero before its start), splits the weight's 4096 feature columns into the pairs `(d, i)` and
  transposes them to four matrices `Wᵢ[d, o] = W[o, 4·d + i]`, and writes the bias as one row. The changes of float
  format on the way are the identity at the ideal values.
-/
import proofs.«176065_j65824668778891_1_alg».proof.Proof.Gen.KernelIdeal.Frame
import proofs.«176065_j65824668778891_1_alg».proof.Proof.Spec
import Idealize.ShloMosaic.Lib.StableHlo.Run
import Idealize.ShloMosaic.Lib.KernelVsHost
import Idealize.ShloMosaic.Lib.Pipeline.Value
import Idealize.ShloMosaic.Lib.ValueIdx

noncomputable section

namespace Phrase.Kern

open Cert.KernelIdeal Cert.KernelIdeal.Gen Idealize.ShloMosaic Idealize.ShloMosaic.TcCoe Idealize.ShloMosaic.ValueIdx Idealize.SL.Sem

/-! ## Read at an entry, over any argument arrays -/

/-- The padded sequence at row `l + 3 − i` is the sequence moved back by `i`. -/
theorem padded_apply (x : FVec Ideal S8x2048x1024 .f32) (hp : S8x2048x1024.Pads (![0, 3, 0] : Fin 3 → Nat) ![0, 0, 0] ![0, 0, 0] S8x2051x1024)
    (hu : 0 < S_.numel) (hlt : FTy.bits .bf16 < FTy.bits .f32) (b : Fin 8) (l : Fin 2048) (i : Fin 4) (d : Fin 1024) (j : Fin 2051)
    (hj : j.val = l.val + (3 - i.val)) :
    truncf .bf16 (pad S8x2051x1024 ![0, 3, 0] ![0, 0, 0] ![0, 0, 0] x (sitofp (F := Ideal) .f32 (constantI S_ 32 0#32)) hp hu) hlt (ix3 b j d)
      = Phrase.shifted x b l i d := by
  have hl := l.isLt
  have hi := i.isLt
  show pad S8x2051x1024 ![0, 3, 0] ![0, 0, 0] ![0, 0, 0] x (sitofp (F := Ideal) .f32 (constantI S_ 32 0#32)) hp hu (ix3 b j d) = _
  by_cases h : i.val ≤ l.val
  · rw [Phrase.shifted_of_le x b l i d h]
    refine pad_apply_of_inside _ _ _ x _ hp hu (ix3 b j d) (ix3 b (⟨l.val - i.val, by omega⟩ : Fin 2048) d) (fun a => ?_)
    match a with
    | ⟨0, _⟩ => show b.val = 0 + b.val * (0 + 1); omega
    | ⟨1, _⟩ => show j.val = 3 + (l.val - i.val) * (0 + 1); omega
    | ⟨2, _⟩ => show d.val = 0 + d.val * (0 + 1); omega
  · rw [Phrase.shifted_of_lt x b l i d (by omega)]
    refine (pad_apply_of_not_inside _ _ _ x _ hp hu (ix3 b j d) (1 : Fin 3) ?_).trans ?_
    · show ¬(3 ≤ j.val ∧ (j.val - 3) % (0 + 1) = 0 ∧ (j.val - 3) / (0 + 1) < 2048)
      omega
    · exact sitofp_zero

/-- The split and transposed weight: matrix `i` at `(d, o)` is the weight at row `o`, feature column `4·d + i`. -/
theorem weights_apply (W : FVec Ideal S1024x4096 .f32) (hc : S1024x4096.ShapeCasts S1024x1024x4)
    (ht : S1024x1024x4.Transposes [2, 1, 0] S4x1024x1024) (hlt : FTy.bits .bf16 < FTy.bits .f32)
    (i : Fin 4) (d : Fin 1024) (o : Fin 1024) :
    truncf .bf16 (transpose S4x1024x1024 [2, 1, 0] (shapeCast S1024x1024x4 W hc) ht) hlt (ix3 i d o) = W (ix2 o (Phrase.col d i)) := by
  show transpose S4x1024x1024 [2, 1, 0] (shapeCast S1024x1024x4 W hc) ht (ix3 i d o) = _
  refine (transpose_apply [2, 1, 0] _ ht (ix3 i d o) (ix3 o d i) (fun a => ?_)).trans ?_
  · match a with
    | ⟨0, _⟩ => rfl
    | ⟨1, _⟩ => rfl
    | ⟨2, _⟩ => rfl
  · refine shapeCast_apply W hc (ix3 o d i) (ix2 o (Phrase.col d i)) ?_
    rw [Shape.rowMajor_val_three, Shape.rowMajor_val_two]
    show o.val * 4096 + (4 * d.val + i.val) = (o.val * 1024 + d.val) * 4 + i.val
    omega

/-- The bias as one row. -/
theorem biasrow_apply (β : FVec Ideal S1024 .f32) (hc : S1024.ShapeCasts S1x1024) (o : Fin 1024) :
    shapeCast S1x1024 β hc (ix2 (0 : Fin 1) o) = β (ix1 o) := by
  refine shapeCast_apply β hc _ (ix1 o) ?_
  rw [Shape.rowMajor_val_one, Shape.rowMajor_val_two]
  show o.val = 0 * 1024 + o.val
  omega

/-! ## The arrays as the region finds them -/

variable (m : (ℓ : Loc nD τ sig) → Buf (Elt Ideal) ℓ)

/-- The staged sequence array: the front-padded sequence. -/
theorem entry_rows (c : Dev nD) : (V m c main_v4 : S8x2051x1024.Idx → Ideal .bf16)
    = truncf .bf16 (pad S8x2051x1024 ![0, 3, 0] ![0, 0, 0] ![0, 0, 0] (m ((c : Thread nD τ).loc main_arg0) : S8x2048x1024.Idx → Ideal .f32)
        (sitofp (F := Ideal) .f32 (constantI S_ 32 0#32)) pads_S8x2048x1024_S8x2051x1024_000_300_000 h_S_) bitsLt_bf16_f32 := by
  dsimp only [V]
  simp only [hostOps0, hostOps0_1, hostOps0_2, List.flatten_cons, List.flatten_nil, List.append_nil, List.cons_append, List.nil_append]
  after_results
  rfl

/-- The staged weight array: the four transposed matrices. -/
theorem entry_weights (c : Dev nD) : (V m c main_v2 : S4x1024x1024.Idx → Ideal .bf16)
    = truncf (F := Ideal) .bf16 (transpose S4x1024x1024 [2, 1, 0] (shapeCast S1024x1024x4 (m ((c : Thread nD τ).loc main_arg1) : S1024x4096.Idx → Ideal .f32)
        shapeCasts_S1024x4096_S1024x1024x4) transposes_S1024x1024x4_S4x1024x1024_2_1_0) bitsLt_bf16_f32 := by
  dsimp only [V]
  simp only [hostOps0, hostOps0_1, hostOps0_2, List.flatten_cons, List.flatten_nil, List.append_nil, List.cons_append, List.nil_append]
  after_results
  rfl

/-- The staged bias array: the bias as one row. -/
theorem entry_bias (c : Dev nD) : (V m c main_v5 : S1x1024.Idx → Ideal .f32)
    = shapeCast S1x1024 (m ((c : Thread nD τ).loc main_arg2) : S1024.Idx → Ideal .f32) shapeCasts_S1024_S1x1024 := by
  dsimp only [V]
  simp only [hostOps0, hostOps0_1, hostOps0_2, List.flatten_cons, List.flatten_nil, List.append_nil, List.cons_append, List.nil_append]
  after_results
  rfl

end Phrase.Kern

end
-- ==== Proof.KernelValue.lean ====
/-
  The kernel's result array after the run, as the specification's function of the arguments.

  Grid point `t` handles one batch row `b` and one half `τ` of the 1024 output coordinates: it stages the padded
  sequence of row `b` (all 2051 rows), the four weight matrices cut to columns `512·τ … 512·τ + 511`, and that half of the
  bias, and writes back the block `(b, all rows, 512·τ …)` of the result. Entry `(0, l, n)` of what it writes is the
  body's arithmetic on those blocks, which is the specification at `(b, l, 512·τ + n)`: the sum of the four products
  from zero is the sum over the four phrase positions. The sixteen blocks tile the result array.
-/
import proofs.«176065_j65824668778891_1_alg».proof.Proof.Gen.KernelIdeal.Value
import proofs.«176065_j65824668778891_1_alg».proof.Proof.KernelPay
import proofs.«176065_j65824668778891_1_alg».proof.Proof.KernelHost
import proofs.«176065_j65824668778891_1_alg».proof.Proof.Spec
import Idealize.ShloMosaic.Lib.Pipeline.Value

noncomputable section

namespace Phrase.Kern

open Cert.KernelIdeal Cert.KernelIdeal.Gen Idealize.ShloMosaic Idealize.ShloMosaic.TcCoe Idealize.ShloMosaic.ValueIdx Idealize.SL.Sem
open Idealize.ShloMosaic.Pipeline (Dat)

/-! ## One block, over any staged blocks -/

/-- Piece `k` of the staged weight slab, at `(0, d, n)`, is the slab at `(k, d, n)`. -/
theorem piece_apply (Wb : Vec Ideal S4x1024x512 .bf16) (k : Nat) (hk : k < 4)
    (inb : ∀ a, (![k, 0, 0] : Fin 3 → Nat) a + S1x1024x512.size a ≤ S4x1024x512.size a) (d : Fin 1024) (n : Fin 512) :
    View.ld Wb (Rect.unit (s := S4x1024x512) ![k, 0, 0] S1x1024x512.size inb) (ix3 (0 : Fin 1) d n) = Wb (ix3 (⟨k, hk⟩ : Fin 4) d n) := by
  show Wb ((Rect.unit (s := S4x1024x512) ![k, 0, 0] S1x1024x512.size inb).emb (ix3 (0 : Fin 1) d n)) = _
  refine congrArg Wb (funext fun a => Fin.ext ?_)
  match a with
  | ⟨0, _⟩ => show k + 1 * 0 = k; omega
  | ⟨1, _⟩ => show 0 + 1 * d.val = d.val; omega
  | ⟨2, _⟩ => show 0 + 1 * n.val = n.val; omega

/-- The body's stored block at `(0, l, n)`, when the staged blocks are the padded row `b`, the weight columns of half `τ`
    and that half of the bias, is the specification at `(b, l, 512·τ + n)`. -/
theorem block_entry (x : FVec Ideal SX .f32) (W : FVec Ideal SW .f32) (β : FVec Ideal SB .f32)
    (X : Vec Ideal S1x2051x1024 .bf16) (Wb : Vec Ideal S4x1024x512 .bf16) (βb : Vec Ideal S1x512 .f32)
    (b : Fin 8) (o : Fin 512 → Fin 1024)
    (hX : ∀ (l : Fin 2048) (i : Fin 4) (d : Fin 1024) (j : Fin 2051), j.val = l.val + (3 - i.val) →
      X (ix3 (0 : Fin 1) j d) = Phrase.shifted x b l i d)
    (hW : ∀ (i : Fin 4) (d : Fin 1024) (n : Fin 512), Wb (ix3 i d n) = W (ix2 (o n) (Phrase.col d i)))
    (hβ : ∀ n : Fin 512, βb (ix2 (0 : Fin 1) n) = β (ix1 (o n)))
    (l : Fin 2048) (n : Fin 512) :
    k0_pay1 (F := Ideal) X (View.ld Wb r0_1) (View.ld Wb r0_2) (View.ld Wb r0_3) (View.ld Wb r0_4) βb (ix3 (0 : Fin 1) l n)
      = Phrase.G x W β (ix3 b l (o n)) := by
  rw [payload_apply]
  have e0 : ∀ d : Fin 1024, X (ix3 (0 : Fin 1) ⟨l.val + 3, by have := l.isLt; omega⟩ d) * View.ld Wb r0_1 (ix3 (0 : Fin 1) d n)
      = Phrase.shifted x b l 0 d * W (ix2 (o n) (Phrase.col d 0)) := fun d =>
    congrArg₂ (· * ·) (hX l 0 d _ rfl) ((piece_apply Wb 0 (by omega) _ d n).trans (hW 0 d n))
  have e1 : ∀ d : Fin 1024, X (ix3 (0 : Fin 1) ⟨l.val + 2, by have := l.isLt; omega⟩ d) * View.ld Wb r0_2 (ix3 (0 : Fin 1) d n)
      = Phrase.shifted x b l 1 d * W (ix2 (o n) (Phrase.col d 1)) := fun d =>
    congrArg₂ (· * ·) (hX l 1 d _ rfl) ((piece_apply Wb 1 (by omega) _ d n).trans (hW 1 d n))
  have e2 : ∀ d : Fin 1024, X (ix3 (0 : Fin 1) ⟨l.val + 1, by have := l.isLt; omega⟩ d) * View.ld Wb r0_3 (ix3 (0 : Fin 1) d n)
      = Phrase.shifted x b l 2 d * W (ix2 (o n) (Phrase.col d 2)) := fun d =>
    congrArg₂ (· * ·) (hX l 2 d _ rfl) ((piece_apply Wb 2 (by omega) _ d n).trans (hW 2 d n))
  have e3 : ∀ d : Fin 1024, X (ix3 (0 : Fin 1) ⟨l.val + 0, by have := l.isLt; omega⟩ d) * View.ld Wb r0_4 (ix3 (0 : Fin 1) d n)
      = Phrase.shifted x b l 3 d * W (ix2 (o n) (Phrase.col d 3)) := fun d =>
    congrArg₂ (· * ·) (hX l 3 d _ rfl) ((piece_apply Wb 3 (by omega) _ d n).trans (hW 3 d n))
  rw [Finset.sum_congr rfl fun d _ => e0 d, Finset.sum_congr rfl fun d _ => e1 d, Finset.sum_congr rfl fun d _ => e2 d,
    Finset.sum_congr rfl fun d _ => e3 d, hβ n, zero_add]
  show _ = (∑ i : Fin 4, ∑ d : Fin 1024, Phrase.shifted x b l i d * W (ix2 (o n) (Phrase.col d i))) + β (ix1 (o n))
  rw [Fin.sum_univ_four]

/-! ## The grid: which block each point handles -/

/-- The printed index maps, decided over the sixteen points: the sequence block follows the result block's batch row, the
    weight and bias blocks its half of the output coordinates; every other block coordinate is zero. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = 0 ∧ win0_1.index t (1 : Fin 3) = 0 ∧ win0_1.index t (2 : Fin 3) = win0_3.index t (2 : Fin 3)
    ∧ win0_2.index t (0 : Fin 2) = 0 ∧ win0_2.index t (1 : Fin 2) = win0_3.index t (2 : Fin 3)
    ∧ win0_3.index t (1 : Fin 3) = 0 ∧ win0_3.index t (0 : Fin 3) < 8 ∧ win0_3.index t (2 : Fin 3) < 2 :=
  (by decide +kernel : ∀ t : Fin grid0.N, _)

/-- Every (batch row, half) pair is some point's. -/
theorem idx_onto : ∀ (q0 : Fin 8) (q2 : Fin 2), ∃ t : Fin cfg0.N, win0_3.index t = ![q0.val, 0, q2.val] :=
  (by decide +kernel : ∀ (q0 : Fin 8) (q2 : Fin 2), ∃ t : Fin grid0.N, win0_3.index t = ![q0.val, 0, q2.val])

theorem hz3 : (![0, 0, 0] : Fin 3 → Nat) = fun _ => 0 := funext fun a => by fin_cases a <;> rfl
theorem hz2 : (![0, 0] : Fin 2 → Nat) = fun _ => 0 := funext fun a => by fin_cases a <;> rfl

variable (m : (ℓ : Loc nD τ sig) → Buf (Elt Ideal) ℓ) (ρ : Dev nD → PrngReg)

/-- The batch row of point `t`. -/
def rowOf (t : Fin cfg0.N) : Fin 8 := ⟨win0_3.index t (0 : Fin 3), (idx_facts t).2.2.2.2.2.2.2.2.2.1⟩
/-- The output coordinate that column `n` of point `t`'s block is. -/
def outOf (t : Fin cfg0.N) (n : Fin 512) : Fin 1024 :=
  ⟨win0_3.index t (2 : Fin 3) * 512 + n.val, by have := (idx_facts t).2.2.2.2.2.2.2.2.2.2; have := n.isLt; omega⟩

/-- The staged sequence block at a point: the region-entry sequence array at the point's batch row. -/
theorem rows_block (c : Dev nD) (t : Fin cfg0.N) (j : Fin 2051) (d : Fin 1024) :
    (iblk m c 0 t : Vec Ideal S1x2051x1024 .bf16) (ix3 (0 : Fin 1) j d)
      = (V m c main_v4 : S8x2051x1024.Idx → Ideal .bf16) (ix3 (rowOf t) j d) := by
  obtain ⟨e0, e1, e2, -⟩ := idx_facts t
  unfold iblk
  rw [View.read_apply]
  show V m c main_v4 _ = V m c main_v4 _
  congr 1
  funext a
  apply Fin.ext
  match a with
  | ⟨0, _⟩ => show win0_0.index t (0 : Fin 3) * 1 + 1 * 0 = win0_3.index t (0 : Fin 3); rw [e0]; omega
  | ⟨1, _⟩ => show win0_0.index t (1 : Fin 3) * 2051 + 1 * j.val = j.val; rw [e1]; omega
  | ⟨2, _⟩ => show win0_0.index t (2 : Fin 3) * 1024 + 1 * d.val = d.val; rw [e2]; omega

/-- The staged weight block at a point: the region-entry weight array at the point's output coordinates. -/
theorem weights_block (c : Dev nD) (t : Fin cfg0.N) (i : Fin 4) (d : Fin 1024) (n : Fin 512) :
    (iblk m c 1 t : Vec Ideal S4x1024x512 .bf16) (ix3 i d n)
      = (V m c main_v2 : S4x1024x1024.Idx → Ideal .bf16) (ix3 i d (outOf t n)) := by
  obtain ⟨-, -, -, e0, e1, e2, -⟩ := idx_facts t
  unfold iblk
  rw [View.read_apply]
  show V m c main_v2 _ = V m c main_v2 _
  congr 1
  funext a
  apply Fin.ext
  match a with
  | ⟨0, _⟩ => show win0_1.index t (0 : Fin 3) * 4 + 1 * i.val = i.val; rw [e0]; omega
  | ⟨1, _⟩ => show win0_1.index t (1 : Fin 3) * 1024 + 1 * d.val = d.val; rw [e1]; omega
  | ⟨2, _⟩ => show win0_1.index t (2 : Fin 3) * 512 + 1 * n.val = win0_3.index t (2 : Fin 3) * 512 + n.val; rw [e2]; omega

/-- The staged bias block at a point: the region-entry bias row at the point's output coordinates. -/
theorem bias_block (c : Dev nD) (t : Fin cfg0.N) (n : Fin 512) :
    (iblk m c 2 t : Vec Ideal S1x512 .f32) (ix2 (0 : Fin 1) n)
      = (V m c main_v5 : S1x1024.Idx → Ideal .f32) (ix2 (0 : Fin 1) (outOf t n)) := by
  obtain ⟨-, -, -, -, -, -, e0, e1, -⟩ := idx_facts t
  unfold iblk
  rw [View.read_apply]
  show V m c main_v5 _ = V m c main_v5 _
  congr 1
  funext a
  apply Fin.ext
  match a with
  | ⟨0, _⟩ => show win0_2.index t (0 : Fin 2) * 1 + 1 * 0 = 0; rw [e0]
  | ⟨1, _⟩ => show win0_2.index t (1 : Fin 2) * 512 + 1 * n.val = win0_3.index t (2 : Fin 3) * 512 + n.val; rw [e1]; omega

/-! ## What a point writes back, and the array after the run -/

/-- An index of the result block has first coordinate zero: the block is one batch row. -/
theorem unit_first (y : S1x2048x512.Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- The specification at the launch's argument arrays. -/
abbrev spec (c : Dev nD) : S8x2048x1024.Idx → Ideal .f32 :=
  Phrase.G (m ((c : Thread nD τ).loc main_arg0)) (m ((c : Thread nD τ).loc main_arg1)) (m ((c : Thread nD τ).loc main_arg2))

/-- WHAT POINT `t` WRITES BACK is block `t` of the specification. -/
theorem flushed_eq (c : Dev nD) (t : Fin cfg0.N) :
    (dats m 0 c).flushed 3 t = ((cfg0.win 3).blk t).view.read (Elt Ideal) (spec m c) := by
  rw [Cert.KernelIdeal.Value.flushed3]
  unfold out0_3
  rw [View.canon_unit_zero hz3]
  simp only [View.ld_unit_zero (S := S1x2051x1024) hz3, View.ld_unit_zero (S := S1x512) hz2]
  funext y
  obtain ⟨l, n, rfl⟩ : ∃ (l : Fin 2048) (n : Fin 512), y = ix3 (0 : Fin 1) l n := ⟨_, _, unit_first y⟩
  rw [View.read_apply]
  have hidx : ((cfg0.win 3).blk t).view.emb (ix3 (0 : Fin 1) l n) = ix3 (rowOf t) l (outOf t n) := by
    obtain ⟨-, -, -, -, -, -, -, -, e1, -⟩ := idx_facts t
    funext a
    apply Fin.ext
    match a with
    | ⟨0, _⟩ => show win0_3.index t (0 : Fin 3) * 1 + 1 * 0 = win0_3.index t (0 : Fin 3); omega
    | ⟨1, _⟩ => show win0_3.index t (1 : Fin 3) * 2048 + 1 * l.val = l.val; rw [e1]; omega
    | ⟨2, _⟩ => show win0_3.index t (2 : Fin 3) * 512 + 1 * n.val = win0_3.index t (2 : Fin 3) * 512 + n.val; omega
  rw [hidx]
  refine block_entry (m ((c : Thread nD τ).loc main_arg0)) (m ((c : Thread nD τ).loc main_arg1)) (m ((c : Thread nD τ).loc main_arg2))
    (iblk m c 0 t) (iblk m c 1 t) (iblk m c 2 t) (rowOf t) (outOf t) ?_ ?_ ?_ l n
  · intro l i d j hj
    rw [rows_block m c t j d, entry_rows m c]
    exact padded_apply _ _ _ _ (rowOf t) l i d j hj
  · intro i d n
    rw [weights_block m c t i d n, entry_weights m c]
    exact weights_apply _ _ _ _ i d (outOf t n)
  · intro n
    rw [bias_block m c t n, entry_bias m c]
    exact biasrow_apply _ _ (outOf t n)

/-- An index of the array is in point `t`'s block iff each coordinate is in the block's range on its axis. -/
theorem mem_blk (t : Fin cfg0.N) (i : S8x2048x1024.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v6).slice (win0_3.rect t)).set ↔ _
  rw [View.set_slice_whole, Rect.mem_set_unit]
  exact Iff.rfl

/-- The sixteen blocks cover the result array. -/
theorem covered (i : S8x2048x1024.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- THE ARRAY after the run is the specification of the arguments. -/
theorem final (c : Dev nD) : (dats m 0 c).arrAt 3 cfg0.N = spec m c :=
  (dats m 0 c).arrAt_eq_of_cover 3 (spec m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Phrase.Kern

end
-- ==== Proof.RefG.lean ====
/-
  The reference program is the phrase projection `Phrase.G`.

  The program makes four copies of the sequence, copy `i` padded in front with `i` rows of zeros and cut back to 2048
  rows, so that copy `i` at row `l` is row `l − i` of the sequence, and zero before the sequence starts: that is
  `Phrase.shifted x b l i d`. It stacks the four copies on a new last axis and flattens the last two axes, which puts
  copy `i` of word coordinate `d` in feature column `4·d + i` (`Phrase.col d i`), contracts the 4096 features with
  the weight's rows, and adds the bias. A sum over the 4096 features is the double sum over phrase positions and word
  coordinates (`Phrase.sum_cols`), which is how `Phrase.G` writes it.
-/
import proofs.«176065_j65824668778891_1_alg».proof.Proof.Gen.ReferenceIdeal.Read
import proofs.«176065_j65824668778891_1_alg».proof.Proof.Spec
import Idealize.ShloMosaic.Lib.KernelVsHost

noncomputable section

namespace Phrase.Ref

open Cert.ReferenceIdeal Cert.ReferenceIdeal.Gen Cert.ReferenceIdeal.Read
open Idealize.ShloMosaic Idealize.ShloMosaic.ValueIdx

/-! ## The padding value is zero -/

theorem padv0 (q : S_.Idx) : val_main_call0_v0 (F := Ideal) q = 0 := by
  rw [val_main_call0_v0_apply, val_main_c_apply]; exact sitofp_zero (φ := .f32)
theorem padv1 (q : S_.Idx) : val_main_call1_v0 (F := Ideal) q = 0 := by
  rw [val_main_call1_v0_apply, val_main_c_0_apply]; exact sitofp_zero (φ := .f32)
theorem padv2 (q : S_.Idx) : val_main_call2_v0 (F := Ideal) q = 0 := by
  rw [val_main_call2_v0_apply, val_main_c_1_apply]; exact sitofp_zero (φ := .f32)
theorem padv3 (q : S_.Idx) : val_main_call3_v0 (F := Ideal) q = 0 := by
  rw [val_main_call3_v0_apply, val_main_c_2_apply]; exact sitofp_zero (φ := .f32)

/-! ## A sequence padded in front with `i` rows of zeros, read at a row of the sequence -/

/-- The sequence padded in front with `i` rows of a value that is zero, read at `(b, l, d)` with `l` below 2048: row
    `l − i` of the sequence when `i ≤ l`, and zero in the `i` rows before it. -/
theorem pad_rows {m : Nat} (i : Fin 4) (x : FVec Ideal SX .f32) {u : Shape} (v : u.Idx → EReal) (hv : ∀ q, v q = 0)
    (hp : SX.Pads (![0, i.val, 0] : Fin 3 → Nat) ![0, 0, 0] ![0, 0, 0] ⟨3, ![8, m, 1024]⟩) (hu : 0 < u.numel)
    (b : Fin 8) (l : Fin 2048) (hl : l.val < m) (d : Fin 1024) :
    pad ⟨3, ![8, m, 1024]⟩ ![0, i.val, 0] ![0, 0, 0] ![0, 0, 0] x v hp hu (ix3 b (⟨l.val, hl⟩ : Fin m) d)
      = shifted x b l i d := by
  by_cases h : i.val ≤ l.val
  · rw [shifted_of_le x b l i d h]
    exact pad_apply_of_inside _ _ _ x v hp hu _ (ix3 b (⟨l.val - i.val, by have := l.isLt; omega⟩ : Fin 2048) d)
      (fun a => match a with
        | ⟨0, _⟩ => by show b.val = 0 + b.val * (0 + 1); omega
        | ⟨1, _⟩ => by show l.val = i.val + (l.val - i.val) * (0 + 1); omega
        | ⟨2, _⟩ => by show d.val = 0 + d.val * (0 + 1); omega)
  · rw [shifted_of_lt x b l i d (by omega)]
    refine (pad_apply_of_not_inside _ _ _ x v hp hu _ (1 : Fin 3) ?_).trans (hv _)
    intro hin
    have e : i.val ≤ l.val := hin.1
    exact h e

/-! ## The four copies -/

/-- A row of the sequence, as a row of the longer padded array the cut reads. -/
theorem cut_idx2 (b : Fin 8) (l : Fin 2048) (d : Fin 1024) :
    idx_main_v2 (ix3 b l d) = ix3 b (⟨l.val, by have := l.isLt; omega⟩ : Fin 2049) d :=
  funext fun a => Fin.ext (by match a with | ⟨0, _⟩ => rfl | ⟨1, _⟩ => rfl | ⟨2, _⟩ => rfl)
theorem cut_idx4 (b : Fin 8) (l : Fin 2048) (d : Fin 1024) :
    idx_main_v4 (ix3 b l d) = ix3 b (⟨l.val, by have := l.isLt; omega⟩ : Fin 2050) d :=
  funext fun a => Fin.ext (by match a with | ⟨0, _⟩ => rfl | ⟨1, _⟩ => rfl | ⟨2, _⟩ => rfl)
theorem cut_idx6 (b : Fin 8) (l : Fin 2048) (d : Fin 1024) :
    idx_main_v6 (ix3 b l d) = ix3 b (⟨l.val, by have := l.isLt; omega⟩ : Fin 2051) d :=
  funext fun a => Fin.ext (by match a with | ⟨0, _⟩ => rfl | ⟨1, _⟩ => rfl | ⟨2, _⟩ => rfl)

/-- Copy 0 (no padding) is the sequence itself. -/
theorem copy0 (x : FVec Ideal S8x2048x1024 .f32) (b : Fin 8) (l : Fin 2048) (d : Fin 1024) :
    val_main_v0 (F := Ideal) x (ix3 b l d) = shifted x b l (0 : Fin 4) d :=
  pad_rows (0 : Fin 4) x _ padv0 pads_S8x2048x1024_S8x2048x1024_000_000_000 h_S_ b l l.isLt d

/-- Copy 1: one row of zeros in front, cut back to 2048 rows. -/
theorem copy1 (x : FVec Ideal S8x2048x1024 .f32) (b : Fin 8) (l : Fin 2048) (d : Fin 1024) :
    val_main_v2 (F := Ideal) x (ix3 b l d) = shifted x b l (1 : Fin 4) d := by
  rw [val_main_v2_apply, cut_idx2]
  exact pad_rows (1 : Fin 4) x _ padv1 pads_S8x2048x1024_S8x2049x1024_000_100_000 h_S_ b l (by have := l.isLt; omega) d

/-- Copy 2: two rows of zeros in front, cut back to 2048 rows. -/
theorem copy2 (x : FVec Ideal S8x2048x1024 .f32) (b : Fin 8) (l : Fin 2048) (d : Fin 1024) :
    val_main_v4 (F := Ideal) x (ix3 b l d) = shifted x b l (2 : Fin 4) d := by
  rw [val_main_v4_apply, cut_idx4]
  exact pad_rows (2 : Fin 4) x _ padv2 pads_S8x2048x1024_S8x2050x1024_000_200_000 h_S_ b l (by have := l.isLt; omega) d

/-- Copy 3: three rows of zeros in front, cut back to 2048 rows. -/
theorem copy3 (x : FVec Ideal S8x2048x1024 .f32) (b : Fin 8) (l : Fin 2048) (d : Fin 1024) :
    val_main_v6 (F := Ideal) x (ix3 b l d) = shifted x b l (3 : Fin 4) d := by
  rw [val_main_v6_apply, cut_idx6]
  exact pad_rows (3 : Fin 4) x _ padv3 pads_S8x2048x1024_S8x2051x1024_000_300_000 h_S_ b l (by have := l.isLt; omega) d

/-! ## The four copies stacked on a new last axis -/

/-- An index of a copy carrying a trailing unit axis names the copy's own index. -/
theorem unit_idx7 (b : Fin 8) (l : Fin 2048) (d : Fin 1024) (z : Fin 1) : idx_main_v7 (ix4 b l d z) = ix3 b l d :=
  funext fun a => Fin.ext (by match a with | ⟨0, _⟩ => rfl | ⟨1, _⟩ => rfl | ⟨2, _⟩ => rfl)
theorem unit_idx8 (b : Fin 8) (l : Fin 2048) (d : Fin 1024) (z : Fin 1) : idx_main_v8 (ix4 b l d z) = ix3 b l d :=
  funext fun a => Fin.ext (by match a with | ⟨0, _⟩ => rfl | ⟨1, _⟩ => rfl | ⟨2, _⟩ => rfl)
theorem unit_idx9 (b : Fin 8) (l : Fin 2048) (d : Fin 1024) (z : Fin 1) : idx_main_v9 (ix4 b l d z) = ix3 b l d :=
  funext fun a => Fin.ext (by match a with | ⟨0, _⟩ => rfl | ⟨1, _⟩ => rfl | ⟨2, _⟩ => rfl)
theorem unit_idx10 (b : Fin 8) (l : Fin 2048) (d : Fin 1024) (z : Fin 1) : idx_main_v10 (ix4 b l d z) = ix3 b l d :=
  funext fun a => Fin.ext (by match a with | ⟨0, _⟩ => rfl | ⟨1, _⟩ => rfl | ⟨2, _⟩ => rfl)

/-- The stacked array at `(b, l, d, i)` is copy `i` at `(b, l, d)`: the pieces have extent one on the stacking axis, so
    the last coordinate names the piece, which is read at the same first three coordinates. -/
theorem stacked (x : FVec Ideal S8x2048x1024 .f32) (b : Fin 8) (l : Fin 2048) (d : Fin 1024) (i : Fin 4) :
    val_main_v11 (F := Ideal) x (ix4 b l d i) = shifted x b l i d := by
  unfold val_main_v11
  match i with
  | ⟨0, _⟩ =>
    refine Eq.trans (concatenate_apply_piece (t := S8x2048x1024x4) (3 : Fin S8x2048x1024x4.rank) _ _ _ 0 ?_
      S8x2048x1024x1 (val_main_v7 (F := Ideal) x) ?_ rfl 0 ?_ (ix4 b l d (0 : Fin 1)) ?_ ?_) ?_
    · simp
    · rfl
    · rfl
    · intro a
      match a with
      | ⟨0, _⟩ => exact fun _ => rfl
      | ⟨1, _⟩ => exact fun _ => rfl
      | ⟨2, _⟩ => exact fun _ => rfl
      | ⟨3, _⟩ => exact fun h => absurd rfl h
    · rfl
    · rw [val_main_v7_apply, unit_idx7]; exact copy0 x b l d
  | ⟨1, _⟩ =>
    refine Eq.trans (concatenate_apply_piece (t := S8x2048x1024x4) (3 : Fin S8x2048x1024x4.rank) _ _ _ 1 ?_
      S8x2048x1024x1 (val_main_v8 (F := Ideal) x) ?_ rfl 1 ?_ (ix4 b l d (0 : Fin 1)) ?_ ?_) ?_
    · simp
    · rfl
    · rfl
    · intro a
      match a with
      | ⟨0, _⟩ => exact fun _ => rfl
      | ⟨1, _⟩ => exact fun _ => rfl
      | ⟨2, _⟩ => exact fun _ => rfl
      | ⟨3, _⟩ => exact fun h => absurd rfl h
    · rfl
    · rw [val_main_v8_apply, unit_idx8]; exact copy1 x b l d
  | ⟨2, _⟩ =>
    refine Eq.trans (concatenate_apply_piece (t := S8x2048x1024x4) (3 : Fin S8x2048x1024x4.rank) _ _ _ 2 ?_
      S8x2048x1024x1 (val_main_v9 (F := Ideal) x) ?_ rfl 2 ?_ (ix4 b l d (0 : Fin 1)) ?_ ?_) ?_
    · simp
    · rfl
    · rfl
    · intro a
      match a with
      | ⟨0, _⟩ => exact fun _ => rfl
      | ⟨1, _⟩ => exact fun _ => rfl
      | ⟨2, _⟩ => exact fun _ => rfl
      | ⟨3, _⟩ => exact fun h => absurd rfl h
    · rfl
    · rw [val_main_v9_apply, unit_idx9]; exact copy2 x b l d
  | ⟨3, _⟩ =>
    refine Eq.trans (concatenate_apply_piece (t := S8x2048x1024x4) (3 : Fin S8x2048x1024x4.rank) _ _ _ 3 ?_
      S8x2048x1024x1 (val_main_v10 (F := Ideal) x) ?_ rfl 3 ?_ (ix4 b l d (0 : Fin 1)) ?_ ?_) ?_
    · simp
    · rfl
    · rfl
    · intro a
      match a with
      | ⟨0, _⟩ => exact fun _ => rfl
      | ⟨1, _⟩ => exact fun _ => rfl
      | ⟨2, _⟩ => exact fun _ => rfl
      | ⟨3, _⟩ => exact fun h => absurd rfl h
    · rfl
    · rw [val_main_v10_apply, unit_idx10]; exact copy3 x b l d

/-! ## The last two axes flattened -/

/-- Feature column `4·d + i` of the flattened array is entry `(d, i)` of the stacked one. -/
theorem flat_idx (b : Fin 8) (l : Fin 2048) (d : Fin 1024) (i : Fin 4) :
    idx_main_v12 (ix3 b l (col d i)) = ix4 b l d i :=
  funext fun a => Fin.ext (by
    have hb := b.isLt; have hl := l.isLt; have hd := d.isLt; have hi := i.isLt
    match a with
    | ⟨0, _⟩ => show ((b.val * 2048 + l.val) * 4096 + (4 * d.val + i.val)) / 8388608 = b.val; omega
    | ⟨1, _⟩ => show ((b.val * 2048 + l.val) * 4096 + (4 * d.val + i.val)) / 4096 % 2048 = l.val; omega
    | ⟨2, _⟩ => show ((b.val * 2048 + l.val) * 4096 + (4 * d.val + i.val)) / 4 % 1024 = d.val; omega
    | ⟨3, _⟩ => show ((b.val * 2048 + l.val) * 4096 + (4 * d.val + i.val)) % 4 = i.val; omega)

theorem flattened (x : FVec Ideal S8x2048x1024 .f32) (b : Fin 8) (l : Fin 2048) (d : Fin 1024) (i : Fin 4) :
    val_main_v12 (F := Ideal) x (ix3 b l (col d i)) = shifted x b l i d := by
  rw [val_main_v12_apply, flat_idx]; exact stacked x b l d i

/-! ## The contraction and the bias -/

theorem lidx_eq (b : Fin 8) (l : Fin 2048) (o : Fin 1024) (k : Fin 4096) :
    lidx_main_v13 (ix3 b l o) k = ix3 b l k :=
  funext fun a => Fin.ext (by match a with | ⟨0, _⟩ => rfl | ⟨1, _⟩ => rfl | ⟨2, _⟩ => rfl)

theorem ridx_eq (b : Fin 8) (l : Fin 2048) (o : Fin 1024) (k : Fin 4096) :
    ridx_main_v13 (ix3 b l o) k = ix2 o k :=
  funext fun a => Fin.ext (by match a with | ⟨0, _⟩ => rfl | ⟨1, _⟩ => rfl)

theorem bias_idx (b : Fin 8) (l : Fin 2048) (o : Fin 1024) :
    idx_main_v14 (idx_main_v15 (ix3 b l o)) = ix1 o :=
  funext fun a => Fin.ext (by match a with | ⟨0, _⟩ => rfl)

/-- The reference program computes the phrase projection. -/
theorem ref_eq (x : FVec Ideal Cert.ReferenceIdeal.S8x2048x1024 .f32) (W : FVec Ideal Cert.ReferenceIdeal.S1024x4096 .f32)
    (β : FVec Ideal Cert.ReferenceIdeal.S1024 .f32) :
    Cert.ReferenceIdeal.Read.val_main_v16 (F := Ideal) x W β = Phrase.G x W β := by
  funext j
  obtain ⟨b, l, o, rfl⟩ : ∃ (b : Fin 8) (l : Fin 2048) (o : Fin 1024), j = ix3 b l o := ⟨j 0, j 1, j 2, eq_ix3 j⟩
  rw [val_main_v16_apply, val_main_v13_apply, val_main_v15_apply, val_main_v14_apply, sum_cols]
  simp only [lidx_eq, ridx_eq, bias_idx, flattened]
  rfl

end Phrase.Ref

end
-- ==== Proof.lean ====
/-
  The phrase projection: a sliding window of four consecutive rows of a sequence, projected by one weight.

  For a sequence `x[b, l, d]` (8 × 2048 × 1024), a weight `W[o, f]` over the 4096 features `f = 4·d + i` (word coordinate
  `d`, position `i` in the phrase) and a bias `β[o]`, both programs compute, on the extended reals,

      y[b, l, o] = Σ_{i < 4} Σ_{d < 1024} x[b, l − i, d] · W[o, 4·d + i] + β[o]      (terms with l < i are zero)

  (`Phrase.G`, Proof/Spec.lean). The kernel pads the sequence with three zero rows in front, splits the weight into the four
  matrices `Wᵢ[d, o] = W[o, 4·d + i]`, and at each of sixteen grid points (a batch row and a half of the output coordinates)
  adds four block products from zero, then the bias (Proof/KernelPay.lean: the body at an entry; Proof/KernelHost.lean: the
  staged arrays at an entry; Proof/KernelValue.lean: the blocks tile the result). The reference stacks four shifted copies of
  the sequence into the 4096 features and contracts them with the weight in one product (Proof/RefG.lean). The two differ
  only in how a finite sum is grouped and ordered, and in a product with a padding zero, which is zero whatever the other
  factor: no law used needs the inputs finite, so the precondition is never opened. The changes of float format in the
  kernel are the identity at the ideal values, and the idealization rewrote nothing, so the preservation claim is trivial.
  The frames of the two kernel programs are the generated ones; the reference's is its generated run with the result dropped.
-/
import proofs.«176065_j65824668778891_1_alg».proof.Defs
import proofs.«176065_j65824668778891_1_alg».proof.Proof.Gen.Kernel
import proofs.«176065_j65824668778891_1_alg».proof.Proof.Gen.Kernel.Skeleton
import proofs.«176065_j65824668778891_1_alg».proof.Proof.Gen.Kernel.Launch
import proofs.«176065_j65824668778891_1_alg».proof.Proof.Gen.Kernel.Points
import proofs.«176065_j65824668778891_1_alg».proof.Proof.Gen.Kernel.Frame
import proofs.«176065_j65824668778891_1_alg».proof.Proof.Gen.KernelIdeal
import proofs.«176065_j65824668778891_1_alg».proof.Proof.Gen.KernelIdeal.Skeleton
import proofs.«176065_j65824668778891_1_alg».proof.Proof.Gen.KernelIdeal.Launch
import proofs.«176065_j65824668778891_1_alg».proof.Proof.Gen.KernelIdeal.Points
import proofs.«176065_j65824668778891_1_alg».proof.Proof.Gen.KernelIdeal.Frame
import proofs.«176065_j65824668778891_1_alg».proof.Proof.Gen.ReferenceIdeal
import proofs.«176065_j65824668778891_1_alg».proof.Proof.Gen.Pre_finite_inputs
import proofs.«176065_j65824668778891_1_alg».proof.Proof.Gen.KernelIdeal.Value
import proofs.«176065_j65824668778891_1_alg».proof.Proof.Gen.ReferenceIdeal.Run
import proofs.«176065_j65824668778891_1_alg».proof.Proof.Gen.ReferenceIdeal.Read
import proofs.«176065_j65824668778891_1_alg».proof.Proof.KernelValue
import proofs.«176065_j65824668778891_1_alg».proof.Proof.RefG
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and leaves its arguments unchanged: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal values, from memories that agree on the three arguments, the kernel's result array and the reference's
    both end at the phrase projection `Phrase.G` of those arguments. -/
theorem algebraic : Cert.algebraic_KernelIdeal_ReferenceIdeal := by
  intro m ρ m' ρ' _ hagree
  refine ⟨fun c => Phrase.Kern.spec m c, Phrase.Kern.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v16_eq _ _ _).trans (Phrase.Ref.ref_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
